-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S768x256 : S_.BroadcastsInDim S768x256 (![] : Fin 0 → Fin S768x256.rank)
  reducesTo_S768x256_S_d0_1 : S768x256.ReducesTo [0, 1] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg2 : IVec S320000 32) (main_arg3 : IVec S320000 32) (main_v13 : IVec S_ 1) (main_v15 : IVec S320000 1) (main_c_5 : IVec S_ 32) : IVec S_ 1 :=
  let main_v16 : IVec S320000 32 := broadcastInDim S320000 ![] bcast_S_S320000 main_c_5
  let main_v17 : IVec S320000 1 := cmpi .slt main_arg2 main_v16
  let main_v18 : IVec S320000 1 := andi main_v15 main_v17
  let main_c_6 : IVec S_ 1 := constantI S_ 1 1#1
  let main_v19 : IVec S_ 1 := (fun x v => Host.reduce IntOp.andi x v reducesTo_S320000_S_d0 h_S_) main_v18 main_c_6
  let main_v20 : IVec S_ 1 := andi main_v13 main_v19
  let main_c_7 : IVec S_ 32 := constantI S_ 32 0#32
  let main_v21 : IVec S320000 32 := broadcastInDim S320000 ![] bcast_S_S320000 main_c_7
  let main_v22 : IVec S320000 1 := cmpi .sge main_arg3 main_v21
  let main_c_8 : IVec S_ 32 := constantI S_ 32 10000#32
  let main_v23 : IVec S320000 32 := broadcastInDim S320000 ![] bcast_S_S320000 main_c_8
  let main_v24 : IVec S320000 1 := cmpi .slt main_arg3 main_v23
  let main_v25 : IVec S320000 1 := andi main_v22 main_v24
  let main_c_9 : IVec S_ 1 := constantI S_ 1 1#1
  let main_v26 : IVec S_ 1 := (fun x v => Host.reduce IntOp.andi x v reducesTo_S320000_S_d0 h_S_) main_v25 main_c_9
  let main_v27 : IVec S_ 1 := andi main_v20 main_v26
  main_v27

def fn {F : FTy → Type} [FloatOps F] (main_arg0 : FVec F S10000x256 .f32) (main_arg1 : FVec F S320000x256 .f32) (main_arg2 : IVec S320000 32) (main_arg3 : IVec S320000 32) (main_arg4 : FVec F S768x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_c_4 : IVec S_ 32 := constantI S_ 32 0#32
  let main_v14 : IVec S320000 32 := broadcastInDim S320000 ![] bcast_S_S320000 main_c_4
  let main_v15 : IVec S320000 1 := cmpi .sge main_arg2 main_v14
  let main_c_5 : IVec S_ 32 := constantI S_ 32 10000#32
  fn_part1 (F := F) main_arg2 main_arg3 main_v13 main_v15 main_c_5
-- ==== Kernel.lean ====
abbrev S10000x256 : Shape := ⟨2, ![10000, 256]⟩
abbrev S320000x256 : Shape := ⟨2, ![320000, 256]⟩
abbrev S320000 : Shape := ⟨1, ![320000]⟩
abbrev S768x256 : Shape := ⟨2, ![768, 256]⟩
abbrev S256x256 : Shape := ⟨2, ![256, 256]⟩
abbrev S320000x1 : Shape := ⟨2, ![320000, 1]⟩
abbrev S256x1 : Shape := ⟨2, ![256, 1]⟩
abbrev S256x10000 : Shape := ⟨2, ![256, 10000]⟩

abbrev nBuf : Space → Nat
  | .hbm => 15
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S768x256, .f32⟩
  | .hbm, ⟨5, _⟩ => ⟨S10000x256, .bf16⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S320000x1, .i32⟩
  | .hbm, ⟨13, _⟩ => ⟨S320000x1, .i32⟩
  | .hbm, ⟨14, _⟩ => ⟨S320000x256, .f32⟩
  | .local _ .vmem, ⟨0, _⟩ => ⟨S10000x256, .bf16⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S256x1, .i32⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S320000_S320000x1 : S320000.ShapeCasts S320000x1
  iota_S256x10000_d1_w32 : S256x10000.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x10000 : S256x1.Broadcasts S256x10000
  natLt_1_32 : 1 < 32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S256x10000_S10000x256_S256x256_1_0_0_1_n_n_wf : DotDims.WF S256x10000 S10000x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .bf16 = 32 ∨ (Rect.block (s := S10000x256) S10000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S320000x1.size a
  hwx0_1 : ∀ i : grid0.Coords, EltTy.bits .i32 = 32 ∨ (Rect.block (s := S320000x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S320000x1.size a
  hwx0_2 : ∀ i : grid0.Coords, EltTy.bits .i32 = 32 ∨ (Rect.block (s := S320000x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S320000x256.size a
  hwx0_3 : ∀ i : grid0.Coords, EltTy.bits .f32 = 32 ∨ (Rect.block (s := S320000x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S320000x256.size a
  hwx0_7 : ∀ i : grid0.Coords, EltTy.bits .f32 = 32 ∨ (Rect.block (s := S320000x256) S256x256.size (cc0_transform_7 i) (hinb0_7 i)).WholeWords (EltTy.packing .f32)

variable [Facts₀]

def dot_S256x10000_S10000x256_S256x256_1_0_0_1_n_n : DotDims S256x10000 S10000x256 S256x256 where
  lhsContracting := [1]
  rhsContracting := [0]
  lhsNonContracting := [0]
  rhsNonContracting := [1]
  lhsBatch := []
  rhsBatch := []
  wf := dot_S256x10000_S10000x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S768x256 : Shape := ⟨2, ![768, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x768 : Shape := ⟨2, ![320000, 768]⟩

abbrev nBuf : Space → Nat
  | .hbm => 62
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S768x256, .f32⟩
  | .hbm, ⟨5, _⟩ => ⟨S_, .i32⟩
  | .hbm, ⟨6, _⟩ => ⟨S320000, .i32⟩
  | .hbm, ⟨7, _⟩ => ⟨S320000, .i1⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S320000, .i32⟩
  | .hbm, ⟨12, _⟩ => ⟨S320000x1, .i32⟩
  | .hbm, ⟨13, _⟩ => ⟨S1, .i32⟩
  | .hbm, ⟨14, _⟩ => ⟨S_, .i32⟩
  | .hbm, ⟨15, _⟩ => ⟨S320000x1, .i32⟩
  | .hbm, ⟨16, _⟩ => ⟨S320000x1, .i1⟩
  | .hbm, ⟨17, _⟩ => ⟨S1x1, .i32⟩
  | .hbm, ⟨18, _⟩ => ⟨S320000x1, .i32⟩
  | .hbm, ⟨19, _⟩ => ⟨S320000x1, .i1⟩
  | .hbm, ⟨20, _⟩ => ⟨S320000x1, .i1⟩
  | .hbm, ⟨21, _⟩ => ⟨S_, .i1⟩
  | .hbm, ⟨22, _⟩ => ⟨S320000, .i1⟩
  | .hbm, ⟨23, _⟩ => ⟨S320000x256, .f32⟩
  | .hbm, ⟨24, _⟩ => ⟨S320000x256, .i1⟩
  | .hbm, ⟨25, _⟩ => ⟨S_, .f32⟩
  | .hbm, ⟨26, _⟩ => ⟨S320000x256, .f32⟩
  | .hbm, ⟨27, _⟩ => ⟨S320000x256, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S1, .i32⟩
  | .hbm, ⟨37, _⟩ => ⟨S_, .i32⟩
  | .hbm, ⟨38, _⟩ => ⟨S320000x1, .i32⟩
  | .hbm, ⟨39, _⟩ => ⟨S320000x1, .i1⟩
  | .hbm, ⟨40, _⟩ => ⟨S1x1, .i32⟩
  | .hbm, ⟨41, _⟩ => ⟨S320000x1, .i32⟩
  | .hbm, ⟨42, _⟩ => ⟨S320000x1, .i1⟩
  | .hbm, ⟨43, _⟩ => ⟨S320000x1, .i1⟩
  | .hbm, ⟨44, _⟩ => ⟨S_, .i1⟩
  | .hbm, ⟨45, _⟩ => ⟨S320000, .i1⟩
  | .hbm, ⟨46, _⟩ => ⟨S320000x256, .f32⟩
  | .hbm, ⟨47, _⟩ => ⟨S320000x256, .i1⟩
  | .hbm, ⟨48, _⟩ => ⟨S_, .f32⟩
  | .hbm, ⟨49, _⟩ => ⟨S320000x256, .f32⟩
  | .hbm, ⟨50, _⟩ => ⟨S320000x256, .f32⟩
  | .hbm, ⟨51, _⟩ => ⟨S320000x768, .f32⟩
  | .hbm, ⟨52, _⟩ => ⟨S320000x256, .f32⟩
  | .hbm, ⟨53, _⟩ => ⟨S320000x256, .f32⟩
  | .hbm, ⟨54, _⟩ => ⟨S320000x256, .f32⟩
  | .hbm, ⟨55, _⟩ => ⟨S_, .f32⟩
  | .hbm, ⟨56, _⟩ => ⟨S320000x256, .f32⟩
  | .hbm, ⟨57, _⟩ => ⟨S320000x256, .f32⟩
  | .hbm, ⟨58, _⟩ => ⟨S_, .f32⟩
  | .hbm, ⟨59, _⟩ => ⟨S320000x256, .f32⟩
  | .hbm, ⟨60, _⟩ => ⟨S320000x256, .f32⟩
  | .hbm, ⟨61, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v4 : Ref sig .tc := ⟨.hbm, 61, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  concatenates_S320000x256_S320000x256_S320000x256_S320000x768_d1 : Shape.Concatenates [S320000x256, S320000x256, S320000x256] S320000x768 1
  gather_S10000x256_S320000x1_S320000x256_1_0_n_n_0_1_1256_wf : GatherDims.WF S10000x256 S320000x1 S320000x256 [1] [0] [] [0] [] 1 ![1, 256]
  dot_S320000x768_S768x256_S320000x256_1_0_0_1_n_n_wf : DotDims.WF S320000x768 S768x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x768_S768x256_S320000x256_1_0_0_1_n_n : DotDims S320000x768 S768x256 S320000x256 where
  lhsContracting := [1]
  rhsContracting := [0]
  lhsNonContracting := [0]
  rhsNonContracting := [1]
  lhsBatch := []
  rhsBatch := []
  wf := dot_S320000x768_S768x256_S320000x256_1_0_0_1_n_n_wf

class Facts : Prop extends Facts₀ where

variable [Facts]
-- ==== Proof.Spec.lean ====
/-
  The edge embedding as one function of its five arguments.

  An atom table h [10000 × 256], an edge table mr [320000 × 256], two vectors ia, ic of 320000 index words and a weight
  matrix W [768 × 256] are given. For edge e the row of h that ia e names, the row that ic e names and row e of mr,
  laid side by side, are a row of 768 numbers; its product with W is a row of 256 numbers x, and the result holds
  x · logistic x. An index word names the row obtained by reading it as a signed integer and clamping into [0, 9999].

  Multiplying the 768-row into W is three sums of 256 products, one per piece, the pieces meeting rows 0–255, 256–511
  and 512–767 of W: a sum over 768 places is the sum over its three thirds, in any extended-real arithmetic since only
  the order and grouping of additions change. Picking a table row by multiplying with the row of zeros and a single one
  at the named place is that row itself: zero times anything is zero, also at the infinities.
-/
import Mathlib.Algebra.BigOperators.Fin
import Idealize.ShloMosaic.Lib.ValueIdx
import Idealize.ShloMosaic.PureOps.Ideal

noncomputable section

namespace Cert.EdgeEmbed

open Idealize.ShloMosaic Idealize.ShloMosaic.ValueIdx

abbrev Tbl : Shape := ⟨2, ![10000, 256]⟩
abbrev Edg : Shape := ⟨2, ![320000, 256]⟩
abbrev Ends : Shape := ⟨1, ![320000]⟩
abbrev Wts : Shape := ⟨2, ![768, 256]⟩

/-- The table row an index word names: the word read signed, clamped into [0, 9999]. -/
def row (w : BitVec 32) : Fin 10000 := ⟨min w.toInt.toNat 9999, by omega⟩

/-- Row k of the first, second, third block of 256 rows of the weight matrix. -/
abbrev w0 (k : Fin 256) : Fin 768 := ⟨k.val, by have := k.isLt; omega⟩
abbrev w1 (k : Fin 256) : Fin 768 := ⟨256 + k.val, by have := k.isLt; omega⟩
abbrev w2 (k : Fin 256) : Fin 768 := ⟨512 + k.val, by have := k.isLt; omega⟩

/-- Entry (e, j) before the activation: the three pieces' contributions. -/
def lin (h : Tbl.Idx → EReal) (mr : Edg.Idx → EReal) (ia ic : Ends.Idx → BitVec 32) (W : Wts.Idx → EReal)
    (e : Fin 320000) (j : Fin 256) : EReal :=
  (∑ k : Fin 256, h (ix2 (row (ia (ix1 e))) k) * W (ix2 (w0 k) j)
    + ∑ k : Fin 256, h (ix2 (row (ic (ix1 e))) k) * W (ix2 (w1 k) j))
    + ∑ k : Fin 256, mr (ix2 e k) * W (ix2 (w2 k) j)

/-- The result array. -/
def G (h : Tbl.Idx → EReal) (mr : Edg.Idx → EReal) (ia ic : Ends.Idx → BitVec 32) (W : Wts.Idx → EReal) :
    Edg.Idx → EReal := fun i =>
  lin h mr ia ic W (i 0) (i 1) * Ideal.logistic (lin h mr ia ic W (i 0) (i 1))

/-- Every index word lies in [0, 9999]. -/
def InRange (idx : Ends.Idx → BitVec 32) : Prop := ∀ i, 0 ≤ (idx i).toInt ∧ (idx i).toInt < 10000

/-- A sum over 768 places is the sum over its three thirds. -/
theorem sum_thirds (f : Fin 768 → EReal) :
    ∑ k : Fin 768, f k = (∑ k : Fin 256, f (w0 k) + ∑ k : Fin 256, f (w1 k)) + ∑ k : Fin 256, f (w2 k) := by
  have e1 : ∑ k : Fin 768, f k
      = ∑ k : Fin 512, f ⟨k.val, by have := k.isLt; omega⟩ + ∑ k : Fin 256, f (w2 k) :=
    Fin.sum_univ_add (a := 512) (b := 256) f
  have e2 : ∑ k : Fin 512, f ⟨k.val, by have := k.isLt; omega⟩
      = ∑ k : Fin 256, f (w0 k) + ∑ k : Fin 256, f (w1 k) :=
    Fin.sum_univ_add (a := 256) (b := 256) fun k : Fin (256 + 256) => f ⟨k.val, by have := k.isLt; omega⟩
  rw [e1, e2]

/-- A bit that is set exactly at place r picks entry r out of a sum of products. -/
theorem sum_pick (r : Fin 10000) (b : Fin 10000 → BitVec 1) (hb : ∀ n, b n = 1#1 ↔ n = r) (f : Fin 10000 → EReal) :
    ∑ n : Fin 10000, ((((b n).setWidth 32).toInt : ℝ) : EReal) * f n = f r := by
  rw [Finset.sum_eq_single r]
  · rw [(hb r).mpr rfl]
    simp
  · intro n _ hn
    have h0 : b n = 0#1 := eq_zero_of_ne_one fun h => hn ((hb n).mp h)
    rw [h0]
    simp
  · intro h; exact absurd (Finset.mem_univ r) h

/-- Among the places 0 … 9999, the one whose number is the word w is the row w names, when w is in range. -/
theorem ofNat_eq_iff_row (w : BitVec 32) (h0 : 0 ≤ w.toInt) (h1 : w.toInt < 10000) (n : Fin 10000) :
    BitVec.ofNat 32 n.val = w ↔ n = row w := by
  have hn := n.isLt
  have hc := BitVec.toInt_eq_toNat_cond w
  have hwl := w.isLt
  constructor
  · intro e
    subst e
    refine Fin.ext ?_
    show n.val = min (BitVec.ofNat 32 n.val).toInt.toNat 9999
    rw [BitVec.toNat_ofNat] at hc
    split at hc <;> omega
  · intro e
    subst e
    apply BitVec.eq_of_toNat_eq
    rw [BitVec.toNat_ofNat]
    show min w.toInt.toNat 9999 % 2 ^ 32 = w.toNat
    split at hc <;> omega

end Cert.EdgeEmbed

end
-- ==== Proof.LibPlainDot.lean ====
/-
  A plain matrix product read at an entry.

  For dimension numbers that contract axis 1 of a left operand [M, K] with axis 0 of a right operand [K, N], with no
  batch axis, into a result [M, N]: at result entry (p, q) and contraction position k the left operand is read at
  (p, k) and the right operand at (k, q). So the sum over the contraction positions of the products of the operands
  at those places is the sum over k < K of left (p, k) · right (k, q).
-/
import Idealize.ShloMosaic.Lib.ValueIdx

namespace Cert.LibPlainDot

open Idealize.ShloMosaic Idealize.ShloMosaic.ValueIdx

variable {M K N : Nat} (d : DotDims ⟨2, ![M, K]⟩ ⟨2, ![K, N]⟩ ⟨2, ![M, N]⟩)
variable (hlc : d.lhsContracting = [1]) (hrc : d.rhsContracting = [0]) (hln : d.lhsNonContracting = [0])
  (hrn : d.rhsNonContracting = [1]) (hlb : d.lhsBatch = []) (hrb : d.rhsBatch = [])

include hln hlb in
/-- The left operand's row is the result's row. -/
theorem lhs_row (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j ⟨a, ha⟩).val = (j ⟨b, hb⟩).val := fun a b ha hb h => by subst h; rfl
  exact key _ _ _ _ (by simp [hlb, hln])

include hlc in
/-- The left operand's column is the contraction position. -/
theorem lhs_col (j : (⟨2, ![M, N]⟩ : Shape).Idx) (k : d.contr.Idx) :
    (d.lhsIdx j k 1).val = (k ⟨0, by rw [d.rank_contr, hlc]; exact Nat.one_pos⟩).val :=
  d.lhsIdx_val_of_single hlc j k

include hrc in
/-- The right operand's row is the contraction position. -/
theorem rhs_row (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

include hrn hrb hln hlb in
/-- The right operand's column is the result's column. -/
theorem rhs_col (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j ⟨a, ha⟩).val = (j ⟨b, hb⟩).val := fun a b ha hb h => by subst h; rfl
  exact key _ _ _ _ (by simp [hlb, hln, hrn])

include hlc hrc hln hrn hlb hrb in
/-- THE PRODUCT'S SUM AT (p, q): over k < K, left (p, k) · right (k, q). -/
theorem sum_apply {α : Type} [AddCommMonoid α] [Mul α] (hr : d.contr.rank = 1) (hs : d.contr.size ⟨0, by omega⟩ = K)
    (l : (⟨2, ![M, K]⟩ : Shape).Idx → α) (r : (⟨2, ![K, N]⟩ : Shape).Idx → α) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a
    match a with
    | ⟨0, _⟩ => exact Fin.ext (lhs_row d hln hlb _ _)
    | ⟨1, _⟩ => exact Fin.ext ((lhs_col d hlc _ _).trans hk)
  have er : d.rhsIdx (ix2 p q) ((contrEquiv1 d K hr hs).symm k) = ix2 k q := by
    funext a
    match a with
    | ⟨0, _⟩ => exact Fin.ext ((rhs_row d hrc _ _).trans hk)
    | ⟨1, _⟩ => exact Fin.ext (rhs_col d hln hrn hlb hrb _ _)
  rw [el, er]

end Cert.LibPlainDot
-- ==== Proof.KerBody.lean ====
/-
  The kernel's body, read entry by entry.

  For a block of 256 edges the body builds, for each of the two index columns, the 256 × 10000 matrix that has a one
  where the column number is the row's index word and zeros elsewhere, and multiplies it into the whole atom table:
  row p of the product is the table row that p's index word names, when the word lies in [0, 9999] (exactly one column
  number equals it). The two picked blocks and the block of edge features are each multiplied into their 256 × 256 block
  of weights, the three products are added, and each entry x becomes x · logistic x. Changes of float format are the
  identity on the extended reals.
-/
import proofs.«425093_j87900800680239_1_alg».proof.Proof.Gen.KernelIdeal.Skeleton
import proofs.«425093_j87900800680239_1_alg».proof.Proof.Spec
import proofs.«425093_j87900800680239_1_alg».proof.Proof.LibPlainDot
import Idealize.ShloMosaic.Lib.Pipeline.Value
import Idealize.ShloMosaic.Lib.StableHlo.Predicate
import Idealize.ShloMosaic.PureOps.Ideal.Laws

noncomputable section

namespace Cert.KernelIdeal.Body

open Cert.KernelIdeal Cert.KernelIdeal.Gen Idealize.ShloMosaic Idealize.ShloMosaic.ValueIdx Cert.EdgeEmbed

section AnyValues
variable {F : FTy → Type} [FloatOps F]

/-- One where the column number is the row's index word, zero elsewhere. -/
def oneHot (idxv : IVec S256x1 32) : FVec F S256x10000 .bf16 :=
  truncf .bf16 (sitofp .f32 (extui 32 (cmpi .eq (iota .tc S256x10000 32 [1] iota_S256x10000_d1_w32)
    (broadcastTo S256x10000 (shapeCast S256x1 idxv shapeCasts_S256x1_S256x1) broadcasts_S256x1_S256x10000)) natLt_1_32))
    bitsLt_bf16_f32

/-- The one-hot matrix times the table. -/
def picked (idxv : IVec S256x1 32) (tbl : FVec F S10000x256 .bf16) : FVec F S256x256 .f32 :=
  matmul dot_S256x10000_S10000x256_S256x256_1_0_0_1_n_n none (oneHot idxv)
    (shapeCast S10000x256 tbl shapeCasts_S10000x256_S10000x256) (constant S256x256 .f32 0x00000000#32)

/-- A 256 × 256 block times a block of weights. -/
def times (A : FVec F S256x256 .f32) (Wb : FVec F S256x256 .bf16) : FVec F S256x256 .f32 :=
  matmul dot_S256x256_S256x256_S256x256_1_0_0_1_n_n none (truncf .bf16 A bitsLt_bf16_f32)
    (shapeCast S256x256 Wb shapeCasts_S256x256_S256x256) (constant S256x256 .f32 0x00000000#32)

/-- The three products added, then x ↦ x · logistic x. -/
def body (ia ic : IVec S256x1 32) (ta tc : FVec F S10000x256 .bf16) (mb : FVec F S256x256 .f32)
    (wa wc wr : FVec F S256x256 .bf16) : FVec F S256x256 .f32 :=
  mulf (addf (addf (times (picked ia ta) wa) (times (picked ic tc) wc)) (times mb wr))
    (logistic (addf (addf (times (picked ia ta) wa) (times (picked ic tc) wc)) (times mb wr)))

/-- The generated payload is that term. -/
theorem pay_eq (ia ic : Vec F S256x1 .i32) (ta tc : Vec F S10000x256 .bf16) (mb : Vec F S256x256 .f32)
    (wa wc wr : Vec F S256x256 .bf16) : k0_pay1 ia ic ta tc mb wa wc wr = body ia ic ta tc mb wa wc wr := rfl

end AnyValues

/-- The one-hot matrix at (p, n): the equality test of column number n with row p's index word, as a number. -/
theorem oneHot_apply (idxv : IVec S256x1 32) (p : Fin 256) (n : Fin 10000) :
    oneHot (F := Ideal) idxv (ix2 p n)
      = ((((IntOp.cmpi .eq (BitVec.ofNat 32 n.val) (idxv (ix2 p (0 : Fin 1)))).setWidth 32).toInt : ℝ) : EReal) := by
  have hb : broadcastTo S256x10000 (shapeCast S256x1 idxv shapeCasts_S256x1_S256x1) broadcasts_S256x1_S256x10000 (ix2 p n)
      = idxv (ix2 p (0 : Fin 1)) := by
    rw [shapeCast_self]
    refine broadcastTo_apply idxv _ (ix2 p n) (ix2 p (0 : Fin 1)) fun a => ?_
    match a with
    | ⟨0, _⟩ => show p.val = if (256 : Nat) = 1 then 0 else p.val; rw [if_neg (by decide)]
    | ⟨1, _⟩ => show (0 : Nat) = if (1 : Nat) = 1 then 0 else _; rw [if_pos rfl]
  show ((((IntOp.cmpi .eq (iota .tc S256x10000 32 [1] iota_S256x10000_d1_w32 (ix2 p n))
    (broadcastTo S256x10000 (shapeCast S256x1 idxv shapeCasts_S256x1_S256x1) broadcasts_S256x1_S256x10000 (ix2 p n))).setWidth 32).toInt : ℝ) : EReal) = _
  rw [hb, iota_single_apply]

/-- Row p of a picked block is the table row p's index word names, for a word in range. -/
theorem picked_apply (idxv : IVec S256x1 32) (tbl : FVec Ideal S10000x256 .bf16) (p k : Fin 256)
    (h0 : 0 ≤ (idxv (ix2 p (0 : Fin 1))).toInt) (h1 : (idxv (ix2 p (0 : Fin 1))).toInt < 10000) :
    picked idxv tbl (ix2 p k) = tbl (ix2 (row (idxv (ix2 p (0 : Fin 1)))) k) := by
  unfold picked
  show FloatOps.matmul _ none _ _ (constant S256x256 .f32 0x00000000#32) (ix2 p k) = _
  rw [Ideal.matmul_constant_zero_apply,
    Cert.LibPlainDot.sum_apply dot_S256x10000_S10000x256_S256x256_1_0_0_1_n_n rfl rfl rfl rfl rfl rfl rfl rfl,
    shapeCast_self]
  refine (Finset.sum_congr rfl fun n _ => by rw [oneHot_apply]).trans
    (sum_pick (row (idxv (ix2 p (0 : Fin 1)))) (fun n => IntOp.cmpi .eq (BitVec.ofNat 32 n.val) (idxv (ix2 p (0 : Fin 1))))
      (fun n => ?_) (fun n => tbl (ix2 n k)))
  rw [StableHlo.Predicate.cmpi_eq_iff]
  exact ofNat_eq_iff_row _ h0 h1 n

/-- A block times a block of weights at (p, q). -/
theorem times_apply (A : FVec Ideal S256x256 .f32) (Wb : FVec Ideal S256x256 .bf16) (p q : Fin 256) :
    times A Wb (ix2 p q) = ∑ k : Fin 256, A (ix2 p k) * Wb (ix2 k q) := by
  unfold times
  show FloatOps.matmul _ none _ _ (constant S256x256 .f32 0x00000000#32) (ix2 p q) = _
  rw [Ideal.matmul_constant_zero_apply,
    Cert.LibPlainDot.sum_apply dot_S256x256_S256x256_S256x256_1_0_0_1_n_n rfl rfl rfl rfl rfl rfl rfl rfl,
    shapeCast_self]
  rfl

/-- THE BODY AT (p, q), for index words in range on row p. -/
theorem body_apply (ia ic : IVec S256x1 32) (ta tc : FVec Ideal S10000x256 .bf16) (mb : FVec Ideal S256x256 .f32)
    (wa wc wr : FVec Ideal S256x256 .bf16) (p q : Fin 256)
    (ha0 : 0 ≤ (ia (ix2 p (0 : Fin 1))).toInt) (ha1 : (ia (ix2 p (0 : Fin 1))).toInt < 10000)
    (hc0 : 0 ≤ (ic (ix2 p (0 : Fin 1))).toInt) (hc1 : (ic (ix2 p (0 : Fin 1))).toInt < 10000) :
    body ia ic ta tc mb wa wc wr (ix2 p q)
      = ((∑ k : Fin 256, ta (ix2 (row (ia (ix2 p (0 : Fin 1)))) k) * wa (ix2 k q)
          + ∑ k : Fin 256, tc (ix2 (row (ic (ix2 p (0 : Fin 1)))) k) * wc (ix2 k q))
          + ∑ k : Fin 256, mb (ix2 p k) * wr (ix2 k q))
        * Ideal.logistic ((∑ k : Fin 256, ta (ix2 (row (ia (ix2 p (0 : Fin 1)))) k) * wa (ix2 k q)
          + ∑ k : Fin 256, tc (ix2 (row (ic (ix2 p (0 : Fin 1)))) k) * wc (ix2 k q))
          + ∑ k : Fin 256, mb (ix2 p k) * wr (ix2 k q)) := by
  have e : (addf (addf (times (picked ia ta) wa) (times (picked ic tc) wc)) (times mb wr)) (ix2 p q)
      = (∑ k : Fin 256, ta (ix2 (row (ia (ix2 p (0 : Fin 1)))) k) * wa (ix2 k q)
          + ∑ k : Fin 256, tc (ix2 (row (ic (ix2 p (0 : Fin 1)))) k) * wc (ix2 k q))
          + ∑ k : Fin 256, mb (ix2 p k) * wr (ix2 k q) := by
    show (times (picked ia ta) wa (ix2 p q) + times (picked ic tc) wc (ix2 p q)) + times mb wr (ix2 p q) = _
    rw [times_apply, times_apply, times_apply]
    refine congrArg₂ (· + ·) (congrArg₂ (· + ·) ?_ ?_) rfl
    · exact Finset.sum_congr rfl fun k _ => by rw [picked_apply ia ta p k ha0 ha1]
    · exact Finset.sum_congr rfl fun k _ => by rw [picked_apply ic tc p k hc0 hc1]
  show (addf (addf (times (picked ia ta) wa) (times (picked ic tc) wc)) (times mb wr)) (ix2 p q)
    * Ideal.logistic ((addf (addf (times (picked ia ta) wa) (times (picked ic tc) wc)) (times mb wr)) (ix2 p q)) = _
  rw [e]

end Cert.KernelIdeal.Body

end
-- ==== Proof.KerValue.lean ====
/-
  The kernel's result array is the edge embedding when every index word lies in [0, 9999].

  Grid point t works on edges 256 t … 256 t + 255: it is handed those rows of the two index columns and of the edge
  table, the whole atom table and the three 256-row blocks of the weight matrix, and writes back rows 256 t … 256 t + 255
  of the result. Before the region the host only changes float formats (the identity on the extended reals), cuts the
  weight matrix into its three blocks of rows and lays each index vector out as a column. So what point t writes back is
  block t of the embedding; the 1250 blocks cover all 320000 rows, so the array after the run is the embedding.
-/
import proofs.«425093_j87900800680239_1_alg».proof.Proof.Gen.KernelIdeal.Value
import proofs.«425093_j87900800680239_1_alg».proof.Proof.KerBody
import Idealize.ShloMosaic.Lib.StableHlo.Run

noncomputable section

namespace Cert.KernelIdeal.EdgeValue

open Cert.KernelIdeal Cert.KernelIdeal.Gen Cert.KernelIdeal.Body Idealize.ShloMosaic Idealize.ShloMosaic.TcCoe Idealize.SL.Sem
open Idealize.ShloMosaic.ValueIdx Cert.EdgeEmbed
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block lies at point t: the table and the weight blocks at the origin, the index columns, the edge
    rows and the result at block row t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the region finds, as functions of the arguments -/

/-- The table in the narrower float format is the table. -/
theorem V_tbl (c : Dev nD) : (V m c main_v0 : S10000x256.Idx → EReal) = m ((c : Thread nD τ).loc main_arg0) := by
  dsimp only [V, hostOps0]; after_results; rfl

/-- The first block of weights: rows 0 … 255 of the weight matrix. -/
theorem V_w0 (c : Dev nD) (k q : Fin 256) : (V m c main_v2 : S256x256.Idx → EReal) (ix2 k q) = m ((c : Thread nD τ).loc main_arg4) (ix2 (w0 k) q) := by
  have e : @Eq (S256x256.Idx → EReal) (V m c main_v2)
      (truncf (F := Ideal) .bf16 (extractStridedSlice S256x256 ![0, 0] (m ((c : Thread nD τ).loc main_arg4)) slices_S768x256_S256x256_0_0 : FVec Ideal S256x256 .f32) bitsLt_bf16_f32) := by
    dsimp only [V, hostOps0]; after_results
  rw [e]
  show extractStridedSlice S256x256 ![0, 0] (m ((c : Thread nD τ).loc main_arg4)) slices_S768x256_S256x256_0_0 (ix2 k q) = _
  exact extractStridedSlice_apply ![0, 0] (m ((c : Thread nD τ).loc main_arg4)) slices_S768x256_S256x256_0_0 (ix2 k q) (ix2 (w0 k) q) fun a => by
    match a with
    | ⟨0, _⟩ => exact (Nat.zero_add _).symm
    | ⟨1, _⟩ => exact (Nat.zero_add _).symm

/-- The second block: rows 256 … 511. -/
theorem V_w1 (c : Dev nD) (k q : Fin 256) : (V m c main_v4 : S256x256.Idx → EReal) (ix2 k q) = m ((c : Thread nD τ).loc main_arg4) (ix2 (w1 k) q) := by
  have e : @Eq (S256x256.Idx → EReal) (V m c main_v4)
      (truncf (F := Ideal) .bf16 (extractStridedSlice S256x256 ![256, 0] (m ((c : Thread nD τ).loc main_arg4)) slices_S768x256_S256x256_256_0 : FVec Ideal S256x256 .f32) bitsLt_bf16_f32) := by
    dsimp only [V, hostOps0]; after_results
  rw [e]
  show extractStridedSlice S256x256 ![256, 0] (m ((c : Thread nD τ).loc main_arg4)) slices_S768x256_S256x256_256_0 (ix2 k q) = _
  exact extractStridedSlice_apply ![256, 0] (m ((c : Thread nD τ).loc main_arg4)) slices_S768x256_S256x256_256_0 (ix2 k q) (ix2 (w1 k) q) fun a => by
    match a with
    | ⟨0, _⟩ => rfl
    | ⟨1, _⟩ => exact (Nat.zero_add _).symm

/-- The third block: rows 512 … 767. -/
theorem V_w2 (c : Dev nD) (k q : Fin 256) : (V m c main_v6 : S256x256.Idx → EReal) (ix2 k q) = m ((c : Thread nD τ).loc main_arg4) (ix2 (w2 k) q) := by
  have e : @Eq (S256x256.Idx → EReal) (V m c main_v6)
      (truncf (F := Ideal) .bf16 (extractStridedSlice S256x256 ![512, 0] (m ((c : Thread nD τ).loc main_arg4)) slices_S768x256_S256x256_512_0 : FVec Ideal S256x256 .f32) bitsLt_bf16_f32) := by
    dsimp only [V, hostOps0]; after_results
  rw [e]
  show extractStridedSlice S256x256 ![512, 0] (m ((c : Thread nD τ).loc main_arg4)) slices_S768x256_S256x256_512_0 (ix2 k q) = _
  exact extractStridedSlice_apply ![512, 0] (m ((c : Thread nD τ).loc main_arg4)) slices_S768x256_S256x256_512_0 (ix2 k q) (ix2 (w2 k) q) fun a => by
    match a with
    | ⟨0, _⟩ => rfl
    | ⟨1, _⟩ => exact (Nat.zero_add _).symm

/-- A vector laid out as a column holds, in row e, the vector's entry e. -/
theorem col_apply (v : S320000.Idx → BitVec 32) (e : Fin 320000) :
    shapeCast S320000x1 v shapeCasts_S320000_S320000x1 (ix2 e (0 : Fin 1)) = v (ix1 e) :=
  shapeCast_apply v _ (ix2 e (0 : Fin 1)) (ix1 e) (by
    rw [Shape.rowMajor_val_one, Shape.rowMajor_val_two]
    show e.val = e.val * 1 + 0
    omega)

/-- The first index column. -/
theorem V_ia (c : Dev nD) (e : Fin 320000) : (V m c main_v7 : S320000x1.Idx → BitVec 32) (ix2 e (0 : Fin 1)) = m ((c : Thread nD τ).loc main_arg2) (ix1 e) := by
  have h : (V m c main_v7 : S320000x1.Idx → BitVec 32)
      = fun i => shapeCast S320000x1 (m ((c : Thread nD τ).loc main_arg2)) shapeCasts_S320000_S320000x1 i := by
    dsimp only [V, hostOps0]; after_results; rfl
  rw [h]
  exact col_apply _ e

/-- The second index column. -/
theorem V_ic (c : Dev nD) (e : Fin 320000) : (V m c main_v8 : S320000x1.Idx → BitVec 32) (ix2 e (0 : Fin 1)) = m ((c : Thread nD τ).loc main_arg3) (ix1 e) := by
  have h : (V m c main_v8 : S320000x1.Idx → BitVec 32)
      = fun i => shapeCast S320000x1 (m ((c : Thread nD τ).loc main_arg3)) shapeCasts_S320000_S320000x1 i := by
    dsimp only [V, hostOps0]; after_results; rfl
  rw [h]
  exact col_apply _ e

/-! ## The blocks at a point, at their literal types -/

abbrev iaB (c : Dev nD) (t : Fin cfg0.N) : IVec S256x1 32 := iblk m c 1 t
abbrev icB (c : Dev nD) (t : Fin cfg0.N) : IVec S256x1 32 := iblk m c 2 t
abbrev tblB (c : Dev nD) (t : Fin cfg0.N) : FVec Ideal S10000x256 .bf16 := iblk m c 0 t
abbrev edgB (c : Dev nD) (t : Fin cfg0.N) : FVec Ideal S256x256 .f32 := iblk m c 3 t
abbrev waB (c : Dev nD) (t : Fin cfg0.N) : FVec Ideal S256x256 .bf16 := iblk m c 4 t
abbrev wcB (c : Dev nD) (t : Fin cfg0.N) : FVec Ideal S256x256 .bf16 := iblk m c 5 t
abbrev wrB (c : Dev nD) (t : Fin cfg0.N) : FVec Ideal S256x256 .bf16 := iblk m c 6 t

/-- Edge number of row p of block t. -/
abbrev edge (t : Fin cfg0.N) (p : Fin 256) : Fin 320000 := ⟨t.val * 256 + p.val, by
  have ht : t.val < 1250 := t.isLt
  have hp := p.isLt
  omega⟩

theorem iaB_apply (c : Dev nD) (t : Fin cfg0.N) (p : Fin 256) :
    iaB m c t (ix2 p (0 : Fin 1)) = m ((c : Thread nD τ).loc main_arg2) (ix1 (edge t p)) := by
  obtain ⟨_, _, e0, e1, _⟩ := idx_facts t
  show V m c main_v7 (((cfg0.win 1).blk t).view.emb (ix2 p (0 : Fin 1))) = _
  have hi : ((cfg0.win 1).blk t).view.emb (ix2 p (0 : Fin 1)) = ix2 (edge t p) (0 : Fin 1) := by
    funext a; apply Fin.ext
    match a with
    | ⟨0, _⟩ => show win0_1.index t (0 : Fin 2) * 256 + 1 * p.val = t.val * 256 + p.val; rw [e0]; omega
    | ⟨1, _⟩ => show win0_1.index t (1 : Fin 2) * 1 + 1 * 0 = 0; rw [e1]
  rw [hi]
  exact V_ia m c _

theorem icB_apply (c : Dev nD) (t : Fin cfg0.N) (p : Fin 256) :
    icB m c t (ix2 p (0 : Fin 1)) = m ((c : Thread nD τ).loc main_arg3) (ix1 (edge t p)) := by
  obtain ⟨_, _, _, _, e0, e1, _⟩ := idx_facts t
  show V m c main_v8 (((cfg0.win 2).blk t).view.emb (ix2 p (0 : Fin 1))) = _
  have hi : ((cfg0.win 2).blk t).view.emb (ix2 p (0 : Fin 1)) = ix2 (edge t p) (0 : Fin 1) := by
    funext a; apply Fin.ext
    match a with
    | ⟨0, _⟩ => show win0_2.index t (0 : Fin 2) * 256 + 1 * p.val = t.val * 256 + p.val; rw [e0]; omega
    | ⟨1, _⟩ => show win0_2.index t (1 : Fin 2) * 1 + 1 * 0 = 0; rw [e1]
  rw [hi]
  exact V_ic m c _

theorem tblB_apply (c : Dev nD) (t : Fin cfg0.N) (r : Fin 10000) (k : Fin 256) :
    tblB m c t (ix2 r k) = m ((c : Thread nD τ).loc main_arg0) (ix2 r k) := by
  obtain ⟨e0, e1, _⟩ := idx_facts t
  show V m c main_v0 (((cfg0.win 0).blk t).view.emb (ix2 r k)) = _
  have hi : ((cfg0.win 0).blk t).view.emb (ix2 r k) = ix2 r k := by
    funext a; apply Fin.ext
    match a with
    | ⟨0, _⟩ => show win0_0.index t (0 : Fin 2) * 10000 + 1 * r.val = r.val; rw [e0]; omega
    | ⟨1, _⟩ => show win0_0.index t (1 : Fin 2) * 256 + 1 * k.val = k.val; rw [e1]; omega
  rw [hi]
  exact congrFun (V_tbl m c) _

theorem edgB_apply (c : Dev nD) (t : Fin cfg0.N) (p k : Fin 256) :
    edgB m c t (ix2 p k) = m ((c : Thread nD τ).loc main_arg1) (ix2 (edge t p) k) := by
  obtain ⟨_, _, _, _, _, _, e0, e1, _⟩ := idx_facts t
  show V m c main_arg1 (((cfg0.win 3).blk t).view.emb (ix2 p k)) = _
  have hi : ((cfg0.win 3).blk t).view.emb (ix2 p k) = ix2 (edge t p) k := by
    funext a; apply Fin.ext
    match a with
    | ⟨0, _⟩ => show win0_3.index t (0 : Fin 2) * 256 + 1 * p.val = t.val * 256 + p.val; rw [e0]; omega
    | ⟨1, _⟩ => show win0_3.index t (1 : Fin 2) * 256 + 1 * k.val = k.val; rw [e1]; omega
  rw [hi]
  exact congrFun (V_main_arg1 m c) _

theorem waB_apply (c : Dev nD) (t : Fin cfg0.N) (k q : Fin 256) :
    waB m c t (ix2 k q) = m ((c : Thread nD τ).loc main_arg4) (ix2 (w0 k) q) := by
  obtain ⟨_, _, _, _, _, _, _, _, e0, e1, _⟩ := idx_facts t
  show V m c main_v2 (((cfg0.win 4).blk t).view.emb (ix2 k q)) = _
  have hi : ((cfg0.win 4).blk t).view.emb (ix2 k q) = ix2 k q := by
    funext a; apply Fin.ext
    match a with
    | ⟨0, _⟩ => show win0_4.index t (0 : Fin 2) * 256 + 1 * k.val = k.val; rw [e0]; omega
    | ⟨1, _⟩ => show win0_4.index t (1 : Fin 2) * 256 + 1 * q.val = q.val; rw [e1]; omega
  rw [hi]
  exact V_w0 m c k q

theorem wcB_apply (c : Dev nD) (t : Fin cfg0.N) (k q : Fin 256) :
    wcB m c t (ix2 k q) = m ((c : Thread nD τ).loc main_arg4) (ix2 (w1 k) q) := by
  obtain ⟨_, _, _, _, _, _, _, _, _, _, e0, e1, _⟩ := idx_facts t
  show V m c main_v4 (((cfg0.win 5).blk t).view.emb (ix2 k q)) = _
  have hi : ((cfg0.win 5).blk t).view.emb (ix2 k q) = ix2 k q := by
    funext a; apply Fin.ext
    match a with
    | ⟨0, _⟩ => show win0_5.index t (0 : Fin 2) * 256 + 1 * k.val = k.val; rw [e0]; omega
    | ⟨1, _⟩ => show win0_5.index t (1 : Fin 2) * 256 + 1 * q.val = q.val; rw [e1]; omega
  rw [hi]
  exact V_w1 m c k q

theorem wrB_apply (c : Dev nD) (t : Fin cfg0.N) (k q : Fin 256) :
    wrB m c t (ix2 k q) = m ((c : Thread nD τ).loc main_arg4) (ix2 (w2 k) q) := by
  obtain ⟨_, _, _, _, _, _, _, _, _, _, _, _, e0, e1, _⟩ := idx_facts t
  show V m c main_v6 (((cfg0.win 6).blk t).view.emb (ix2 k q)) = _
  have hi : ((cfg0.win 6).blk t).view.emb (ix2 k q) = ix2 k q := by
    funext a; apply Fin.ext
    match a with
    | ⟨0, _⟩ => show win0_6.index t (0 : Fin 2) * 256 + 1 * k.val = k.val; rw [e0]; omega
    | ⟨1, _⟩ => show win0_6.index t (1 : Fin 2) * 256 + 1 * q.val = q.val; rw [e1]; omega
  rw [hi]
  exact V_w2 m c k q

/-! ## What a point writes back, the cover, the array after the run -/

/-- The embedding of the launch contents of the five arguments. -/
abbrev Gm (c : Dev nD) : S320000x256.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))

/-- WHAT POINT t WRITES BACK is block t of the embedding, for index words in range. -/
theorem flushed_eq (c : Dev nD) (ha : InRange (m ((c : Thread nD τ).loc main_arg2))) (hc : InRange (m ((c : Thread nD τ).loc main_arg3))) (t : Fin cfg0.N) :
    (dats m 0 c).flushed 7 t = ((cfg0.win 7).blk t).view.read (Elt Ideal) (Gm m c) := by
  rw [Value.flushed7]
  unfold out0_7
  rw [View.canon_unit_zero hz]
  simp only [View.ld_unit_zero (S := S256x1) hz, View.ld_unit_zero (S := S10000x256) hz, View.ld_unit_zero (S := S256x256) hz]
  rw [pay_eq]
  obtain ⟨_, _, _, _, _, _, _, _, _, _, _, _, _, _, e0, e1⟩ := idx_facts t
  funext y
  obtain ⟨p, q, rfl⟩ : ∃ (p q : Fin 256), y = ix2 p q := ⟨y 0, y 1, eq_ix2 y⟩
  show body (iaB m c t) (icB m c t) (tblB m c t) (tblB m c t) (edgB m c t) (waB m c t) (wcB m c t) (wrB m c t) (ix2 p q)
    = Gm m c (((cfg0.win 7).blk t).view.emb (ix2 p q))
  have hi : ((cfg0.win 7).blk t).view.emb (ix2 p q) = ix2 (edge t p) q := by
    funext a; apply Fin.ext
    match a with
    | ⟨0, _⟩ => show win0_7.index t (0 : Fin 2) * 256 + 1 * p.val = t.val * 256 + p.val; rw [e0]; omega
    | ⟨1, _⟩ => show win0_7.index t (1 : Fin 2) * 256 + 1 * q.val = q.val; rw [e1]; omega
  rw [hi]
  have ea := iaB_apply m c t p
  have ec := icB_apply m c t p
  refine (body_apply (iaB m c t) (icB m c t) (tblB m c t) (tblB m c t) (edgB m c t) (waB m c t) (wcB m c t) (wrB m c t) p q
    (by rw [ea]; exact (ha _).1) (by rw [ea]; exact (ha _).2) (by rw [ec]; exact (hc _).1) (by rw [ec]; exact (hc _).2)).trans ?_
  rw [ea, ec]
  show _ = lin _ _ _ _ _ (edge t p) q * Ideal.logistic (lin _ _ _ _ _ (edge t p) q)
  have e : (∑ k : Fin 256, tblB m c t (ix2 (row (m ((c : Thread nD τ).loc main_arg2) (ix1 (edge t p)))) k) * waB m c t (ix2 k q)
        + ∑ k : Fin 256, tblB m c t (ix2 (row (m ((c : Thread nD τ).loc main_arg3) (ix1 (edge t p)))) k) * wcB m c t (ix2 k q))
        + ∑ k : Fin 256, edgB m c t (ix2 p k) * wrB m c t (ix2 k q)
      = lin (m ((c : Thread nD τ).loc main_arg0)) (m ((c : Thread nD τ).loc main_arg1)) (m ((c : Thread nD τ).loc main_arg2)) (m ((c : Thread nD τ).loc main_arg3)) (m ((c : Thread nD τ).loc main_arg4)) (edge t p) q := by
    unfold lin
    refine congrArg₂ (· + ·) (congrArg₂ (· + ·) ?_ ?_) ?_
    · exact Finset.sum_congr rfl fun k _ => by rw [tblB_apply, waB_apply]
    · exact Finset.sum_congr rfl fun k _ => by rw [tblB_apply, wcB_apply]
    · exact Finset.sum_congr rfl fun k _ => by rw [edgB_apply, wrB_apply]
  rw [e]

/-- An index of the array is in point t's block iff each coordinate is in the block's range on its axis. -/
theorem mem_blk (t : Fin cfg0.N) (i : S320000x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v9).slice (win0_7.rect t)).set ↔ _
  rw [View.set_slice_whole, Rect.mem_set_unit]
  exact Iff.rfl

/-- Every index lies in the block of the point its row belongs to. -/
theorem cover (i : S320000x256.Idx) : ∃ t : Fin cfg0.N, (cfg0.win 7).flush t = true ∧ i ∈ ((cfg0.win 7).blk t).view.set := by
  have hi0 : (i 0).val < 320000 := (i 0).isLt
  have hi1 : (i 1).val < 256 := (i 1).isLt
  let t : Fin cfg0.N := ⟨(i 0).val / 256, by show (i 0).val / 256 < 1250; omega⟩
  obtain ⟨_, _, _, _, _, _, _, _, _, _, _, _, _, _, e0, e1⟩ := idx_facts t
  refine ⟨t, flush0_7 t, ?_⟩
  rw [mem_blk]
  intro a
  match a with
  | ⟨0, _⟩ =>
    show win0_7.index t (0 : Fin 2) * 256 ≤ (i 0).val ∧ (i 0).val < win0_7.index t (0 : Fin 2) * 256 + 256
    rw [e0]; show (i 0).val / 256 * 256 ≤ (i 0).val ∧ (i 0).val < (i 0).val / 256 * 256 + 256; omega
  | ⟨1, _⟩ =>
    show win0_7.index t (1 : Fin 2) * 256 ≤ (i 1).val ∧ (i 1).val < win0_7.index t (1 : Fin 2) * 256 + 256
    rw [e1]; omega

/-- THE ARRAY after the run is the embedding. -/
theorem final (c : Dev nD) (ha : InRange (m ((c : Thread nD τ).loc main_arg2))) (hc : InRange (m ((c : Thread nD τ).loc main_arg3))) :
    (dats m 0 c).arrAt 7 cfg0.N = Gm m c :=
  (dats m 0 c).arrAt_eq_of_cover 7 (Gm m c) (fun t _ => flushed_eq m c ha hc t) cover

/-- Every weakly fair execution of the kernel's program, from a memory whose index words are in range, terminates with
    the result at the embedding of the arguments and the arguments as launched. -/
theorem run (hr : ∀ c : Dev nD, InRange (m ((c : Thread nD τ).loc main_arg2)) ∧ InRange (m ((c : Thread nD τ).loc main_arg3))) :
    θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hr c).1 (hr c).2), (h c).2⟩)
    (Value.run_blocks m ρ)

end Cert.KernelIdeal.EdgeValue

end
-- ==== Proof.RefLine.lean ====
/-
  The reference program as a straight line of host operations, and its run.

  The reference takes the table rows its two index vectors name, lays them beside the edge table, multiplies into the
  weight matrix and applies x · logistic x. Each of its three helper functions is a short line of operations of its own;
  written out at their calls, with the negative-index wrap inside the first two, the whole program is one line of 57
  operations in which every buffer is written once. Every weakly fair execution of it terminates with each buffer
  holding what the line, run as a fold over the launch contents, leaves there.
-/
import proofs.«425093_j87900800680239_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 57 operations, in order: the first take (23, the wrap's select the seventh), the second take (23), the
    concatenate, the product, the activation (9). -/
abbrev ops : List (HloOp τ sig (Elt F)) :=
  [ TRef.nullary main_call0.c (constantI S_ 32 0#32),
    TRef.unary main_call0.c main_call0.v0 (broadcastInDim S320000 ![] bcast_S_S320000),
    TRef.binary (.of main_arg2) main_call0.v0 main_call0.v1 (cmpi .slt),
    TRef.nullary main_call0.c_0 (constantI S_ 32 10000#32),
    TRef.unary main_call0.c_0 main_call0.v2 (broadcastInDim S320000 ![] bcast_S_S320000),
    TRef.binary (.of main_arg2) main_call0.v2 main_call0.v3 addi,
    TRef.ternary main_call0.v1 main_call0.v3 (.of main_arg2) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x256_S320000x1_S320000x256_1_0_n_n_0_1_1256 x i),
    TRef.unary main_call0.v12 main_call0.v14 (broadcastInDim S320000x256 ![0] bcast_S320000_S320000x256_0),
    TRef.nullary main_call0.cst (constant S_ .f32 0x7FC00000#32),
    TRef.unary main_call0.cst main_call0.v15 (broadcastInDim S320000x256 ![] bcast_S_S320000x256),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_arg3) main_call1.v0 main_call1.v1 (cmpi .slt),
    TRef.nullary main_call1.c_0 (constantI S_ 32 10000#32),
    TRef.unary main_call1.c_0 main_call1.v2 (broadcastInDim S320000 ![] bcast_S_S320000),
    TRef.binary (.of main_arg3) main_call1.v2 main_call1.v3 addi,
    TRef.ternary main_call1.v1 main_call1.v3 (.of main_arg3) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0) main_call1.v5 main_call1.v13 (fun x i => Host.gather gather_S10000x256_S320000x1_S320000x256_1_0_n_n_0_1_1256 x i),
    TRef.unary main_call1.v12 main_call1.v14 (broadcastInDim S320000x256 ![0] bcast_S320000_S320000x256_0),
    TRef.nullary main_call1.cst (constant S_ .f32 0x7FC00000#32),
    TRef.unary main_call1.cst main_call1.v15 (broadcastInDim S320000x256 ![] bcast_S_S320000x256),
    TRef.ternary main_call1.v14 main_call1.v13 main_call1.v15 main_call1.v16 select,
    nary ![main_v0, main_v1, main_arg1] main_v2 (fun u => concatenate S320000x768 1 [⟨S320000x256, u 0⟩, ⟨S320000x256, u 1⟩, ⟨S320000x256, u 2⟩] concatenates_S320000x256_S320000x256_S320000x256_S320000x768_d1),
    binary main_v2 main_arg4 main_v3 ((fun l r => Host.dotGeneral dot_S320000x768_S768x256_S320000x256_1_0_0_1_n_n none l r) : (⟨S320000x768, .f32⟩ : BufTy).Contents (Elt F) → (⟨S768x256, .f32⟩ : BufTy).Contents (Elt F) → (⟨S320000x256, .f32⟩ : BufTy).Contents (Elt F)),
    TRef.unary (.of main_v3) main_call2.v0 Host.negf,
    TRef.unary main_call2.v0 main_call2.v1 Host.exp,
    TRef.nullary main_call2.cst (constant S_ .f32 0x3F800000#32),
    TRef.unary main_call2.cst main_call2.v2 (broadcastInDim S320000x256 ![] bcast_S_S320000x256),
    TRef.binary main_call2.v2 main_call2.v1 main_call2.v3 addf,
    TRef.nullary main_call2.cst_0 (constant S_ .f32 0x3F800000#32),
    TRef.unary main_call2.cst_0 main_call2.v4 (broadcastInDim S320000x256 ![] bcast_S_S320000x256),
    TRef.binary main_call2.v4 main_call2.v3 main_call2.v5 Host.divf,
    TRef.binary (.of main_v3) main_call2.v5 main_call2.v6 mulf ]

set_option maxRecDepth 2048 in
/-- The program is that line: the helper functions opened at their calls, sequencing reassociated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-- Every weakly fair execution terminates, and each TensorCore buffer ends at the line's fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefTerm.lean ====
/-
  What the reference's line leaves in its result buffer, as one term of the five arguments.

  The take of rows: an index word below zero is first moved up by the table's height; the moved word is laid out as a
  column; a row of the result is kept where the moved word lies in [0, 9999] and is replaced by a filler elsewhere; the
  kept rows are read from the table by a gather that clamps the moved word. The whole reference lays two such takes
  beside the edge table, multiplies into the weight matrix, and multiplies each entry x by 1 / (1 + exp (−x)).
-/
import proofs.«425093_j87900800680239_1_alg».proof.Proof.RefLine

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The index words after the wrap: a word below zero is moved up by 10000. -/
def wrapped (idx : IVec S320000 32) : IVec S320000 32 :=
  select (cmpi .slt idx (broadcastInDim S320000 ![] bcast_S_S320000 (constantI S_ 32 0#32)))
    (addi idx (broadcastInDim S320000 ![] bcast_S_S320000 (constantI S_ 32 10000#32))) idx

/-- The wrapped words as a column. -/
def column (idx : IVec S320000 32) : IVec S320000x1 32 :=
  broadcastInDim S320000x1 ![0] bcast_S320000_S320000x1_0 (wrapped idx)

/-- Per row: does the wrapped word lie in [0, 9999]? -/
def inside (idx : IVec S320000 32) : IVec S320000 1 :=
  Host.reduce IntOp.andi
    (andi (cmpi .sge (column idx) (broadcastInDim S320000x1 ![] bcast_S_S320000x1 (constantI S_ 32 0#32)))
      (cmpi .sle (column idx) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The take of the table's rows at the index words. -/
def take (x : FVec F S10000x256 .f32) (idx : IVec S320000 32) : FVec F S320000x256 .f32 :=
  select (broadcastInDim S320000x256 ![0] bcast_S320000_S320000x256_0 (inside idx))
    (Host.gather gather_S10000x256_S320000x1_S320000x256_1_0_n_n_0_1_1256 x (column idx))
    (broadcastInDim S320000x256 ![] bcast_S_S320000x256 (constant S_ .f32 0x7FC00000#32))

/-- The three pieces side by side, times the weight matrix. -/
def dense (x : FVec F S10000x256 .f32) (mr : FVec F S320000x256 .f32) (ia ic : IVec S320000 32)
    (W : FVec F S768x256 .f32) : FVec F S320000x256 .f32 :=
  Host.dotGeneral dot_S320000x768_S768x256_S320000x256_1_0_0_1_n_n none
    (concatenate S320000x768 1 [⟨S320000x256, take x ia⟩, ⟨S320000x256, take x ic⟩, ⟨S320000x256, mr⟩]
      concatenates_S320000x256_S320000x256_S320000x256_S320000x768_d1) W

/-- Entry by entry x ↦ x · (1 / (1 + exp (−x))). -/
def act (y : FVec F S320000x256 .f32) : FVec F S320000x256 .f32 :=
  mulf y (Host.divf (broadcastInDim S320000x256 ![] bcast_S_S320000x256 (constant S_ .f32 0x3F800000#32))
    (addf (broadcastInDim S320000x256 ![] bcast_S_S320000x256 (constant S_ .f32 0x3F800000#32)) (Host.exp (Host.negf y))))

/-- The reference's result. -/
def out (x : FVec F S10000x256 .f32) (mr : FVec F S320000x256 .f32) (ia ic : IVec S320000 32)
    (W : FVec F S768x256 .f32) : FVec F S320000x256 .f32 :=
  act (dense x mr ia ic W)

end Cert.ReferenceIdeal.Line

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.RefFold.lean ====
/-
  The reference's line, read at its result and at its arguments.

  The line is three stretches run one after the other: the first take, the second take, and the concatenate, product and
  activation. Each stretch, run from any contents, leaves in the buffer it computes its term of the buffers it reads, and
  leaves the buffers it does not write as they were; running the three in turn gives the whole line's result as the
  reference's term of the launch contents of the arguments.
-/
import proofs.«425093_j87900800680239_1_alg».proof.Proof.RefTerm
import proofs.«425093_j87900800680239_1_alg».proof.Proof.LibStretch

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first take's 23 operations. -/
abbrev firstTake : List (HloOp τ sig (Elt F)) :=
  [ TRef.nullary main_call0.c (constantI S_ 32 0#32),
    TRef.unary main_call0.c main_call0.v0 (broadcastInDim S320000 ![] bcast_S_S320000),
    TRef.binary (.of main_arg2) main_call0.v0 main_call0.v1 (cmpi .slt),
    TRef.nullary main_call0.c_0 (constantI S_ 32 10000#32),
    TRef.unary main_call0.c_0 main_call0.v2 (broadcastInDim S320000 ![] bcast_S_S320000),
    TRef.binary (.of main_arg2) main_call0.v2 main_call0.v3 addi,
    TRef.ternary main_call0.v1 main_call0.v3 (.of main_arg2) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x256_S320000x1_S320000x256_1_0_n_n_0_1_1256 x i),
    TRef.unary main_call0.v12 main_call0.v14 (broadcastInDim S320000x256 ![0] bcast_S320000_S320000x256_0),
    TRef.nullary main_call0.cst (constant S_ .f32 0x7FC00000#32),
    TRef.unary main_call0.cst main_call0.v15 (broadcastInDim S320000x256 ![] bcast_S_S320000x256),
    TRef.ternary main_call0.v14 main_call0.v13 main_call0.v15 main_call0.v16 select ]

/-- The second take's 23 operations. -/
abbrev secondTake : List (HloOp τ sig (Elt F)) :=
  [ TRef.nullary main_call1.c (constantI S_ 32 0#32),
    TRef.unary main_call1.c main_call1.v0 (broadcastInDim S320000 ![] bcast_S_S320000),
    TRef.binary (.of main_arg3) main_call1.v0 main_call1.v1 (cmpi .slt),
    TRef.nullary main_call1.c_0 (constantI S_ 32 10000#32),
    TRef.unary main_call1.c_0 main_call1.v2 (broadcastInDim S320000 ![] bcast_S_S320000),
    TRef.binary (.of main_arg3) main_call1.v2 main_call1.v3 addi,
    TRef.ternary main_call1.v1 main_call1.v3 (.of main_arg3) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0) main_call1.v5 main_call1.v13 (fun x i => Host.gather gather_S10000x256_S320000x1_S320000x256_1_0_n_n_0_1_1256 x i),
    TRef.unary main_call1.v12 main_call1.v14 (broadcastInDim S320000x256 ![0] bcast_S320000_S320000x256_0),
    TRef.nullary main_call1.cst (constant S_ .f32 0x7FC00000#32),
    TRef.unary main_call1.cst main_call1.v15 (broadcastInDim S320000x256 ![] bcast_S_S320000x256),
    TRef.ternary main_call1.v14 main_call1.v13 main_call1.v15 main_call1.v16 select ]

/-- The concatenate, the product and the activation's 9 operations. -/
abbrev rest : List (HloOp τ sig (Elt F)) :=
  [ nary ![main_v0, main_v1, main_arg1] main_v2 (fun u => concatenate S320000x768 1 [⟨S320000x256, u 0⟩, ⟨S320000x256, u 1⟩, ⟨S320000x256, u 2⟩] concatenates_S320000x256_S320000x256_S320000x256_S320000x768_d1),
    binary main_v2 main_arg4 main_v3 ((fun l r => Host.dotGeneral dot_S320000x768_S768x256_S320000x256_1_0_0_1_n_n none l r) : (⟨S320000x768, .f32⟩ : BufTy).Contents (Elt F) → (⟨S768x256, .f32⟩ : BufTy).Contents (Elt F) → (⟨S320000x256, .f32⟩ : BufTy).Contents (Elt F)),
    TRef.unary (.of main_v3) main_call2.v0 Host.negf,
    TRef.unary main_call2.v0 main_call2.v1 Host.exp,
    TRef.nullary main_call2.cst (constant S_ .f32 0x3F800000#32),
    TRef.unary main_call2.cst main_call2.v2 (broadcastInDim S320000x256 ![] bcast_S_S320000x256),
    TRef.binary main_call2.v2 main_call2.v1 main_call2.v3 addf,
    TRef.nullary main_call2.cst_0 (constant S_ .f32 0x3F800000#32),
    TRef.unary main_call2.cst_0 main_call2.v4 (broadcastInDim S320000x256 ![] bcast_S_S320000x256),
    TRef.binary main_call2.v4 main_call2.v3 main_call2.v5 Host.divf,
    TRef.binary (.of main_v3) main_call2.v5 main_call2.v6 mulf ]

/-- The line is the three stretches in turn. -/
theorem ops_eq : (ops : List (HloOp τ sig (Elt F))) = firstTake ++ (secondTake ++ rest) := rfl

theorem after_ops (V : Valuation τ sig (Elt F)) : after ops V = after rest (after secondTake (after firstTake V)) := by
  rw [ops_eq, Cert.LibStretch.after_cat, Cert.LibStretch.after_cat]

/-! ## What each stretch computes -/

attribute [local irreducible] Host.reduce Host.gather in
set_option maxRecDepth 8192 in
set_option maxHeartbeats 4000000 in
theorem first_out (V : Valuation τ sig (Elt F)) :
    after firstTake V (main_v0 : DevRef τ sig) = take (V (main_arg0 : DevRef τ sig)) (V (main_arg2 : DevRef τ sig)) := by
  simp only [after_cons, after_nil]
  rfl

attribute [local irreducible] Host.reduce Host.gather in
set_option maxRecDepth 8192 in
set_option maxHeartbeats 4000000 in
theorem second_out (V : Valuation τ sig (Elt F)) :
    after secondTake V (main_v1 : DevRef τ sig) = take (V (main_arg0 : DevRef τ sig)) (V (main_arg3 : DevRef τ sig)) := by
  simp only [after_cons, after_nil]
  rfl

attribute [local irreducible] concatenate in
set_option maxRecDepth 8192 in
set_option maxHeartbeats 4000000 in
theorem rest_out (V : Valuation τ sig (Elt F)) :
    after rest V (main_v4 : DevRef τ sig)
      = act (Host.dotGeneral dot_S320000x768_S768x256_S320000x256_1_0_0_1_n_n none
          (concatenate S320000x768 1 [⟨S320000x256, V (main_v0 : DevRef τ sig)⟩, ⟨S320000x256, V (main_v1 : DevRef τ sig)⟩,
            ⟨S320000x256, V (main_arg1 : DevRef τ sig)⟩] concatenates_S320000x256_S320000x256_S320000x256_S320000x768_d1)
          (V (main_arg4 : DevRef τ sig))) := by
  simp only [after_cons, after_nil]
  rfl

/-! ## What each stretch leaves alone -/

set_option maxRecDepth 8192 in
theorem first_main_arg0 (V : Valuation τ sig (Elt F)) : after firstTake V (main_arg0 : DevRef τ sig) = V (main_arg0 : DevRef τ sig) := by
  simp only [after_cons, after_nil]
  rfl
set_option maxRecDepth 8192 in
theorem first_main_arg1 (V : Valuation τ sig (Elt F)) : after firstTake V (main_arg1 : DevRef τ sig) = V (main_arg1 : DevRef τ sig) := by
  simp only [after_cons, after_nil]
  rfl
set_option maxRecDepth 8192 in
theorem first_main_arg2 (V : Valuation τ sig (Elt F)) : after firstTake V (main_arg2 : DevRef τ sig) = V (main_arg2 : DevRef τ sig) := by
  simp only [after_cons, after_nil]
  rfl
set_option maxRecDepth 8192 in
theorem first_main_arg3 (V : Valuation τ sig (Elt F)) : after firstTake V (main_arg3 : DevRef τ sig) = V (main_arg3 : DevRef τ sig) := by
  simp only [after_cons, after_nil]
  rfl
set_option maxRecDepth 8192 in
theorem first_main_arg4 (V : Valuation τ sig (Elt F)) : after firstTake V (main_arg4 : DevRef τ sig) = V (main_arg4 : DevRef τ sig) := by
  simp only [after_cons, after_nil]
  rfl
set_option maxRecDepth 8192 in
theorem second_main_arg0 (V : Valuation τ sig (Elt F)) : after secondTake V (main_arg0 : DevRef τ sig) = V (main_arg0 : DevRef τ sig) := by
  simp only [after_cons, after_nil]
  rfl
set_option maxRecDepth 8192 in
theorem second_main_arg1 (V : Valuation τ sig (Elt F)) : after secondTake V (main_arg1 : DevRef τ sig) = V (main_arg1 : DevRef τ sig) := by
  simp only [after_cons, after_nil]
  rfl
set_option maxRecDepth 8192 in
theorem second_main_arg2 (V : Valuation τ sig (Elt F)) : after secondTake V (main_arg2 : DevRef τ sig) = V (main_arg2 : DevRef τ sig) := by
  simp only [after_cons, after_nil]
  rfl
set_option maxRecDepth 8192 in
theorem second_main_arg3 (V : Valuation τ sig (Elt F)) : after secondTake V (main_arg3 : DevRef τ sig) = V (main_arg3 : DevRef τ sig) := by
  simp only [after_cons, after_nil]
  rfl
set_option maxRecDepth 8192 in
theorem second_main_arg4 (V : Valuation τ sig (Elt F)) : after secondTake V (main_arg4 : DevRef τ sig) = V (main_arg4 : DevRef τ sig) := by
  simp only [after_cons, after_nil]
  rfl
set_option maxRecDepth 8192 in
theorem second_main_v0 (V : Valuation τ sig (Elt F)) : after secondTake V (main_v0 : DevRef τ sig) = V (main_v0 : DevRef τ sig) := by
  simp only [after_cons, after_nil]
  rfl
set_option maxRecDepth 8192 in
theorem rest_main_arg0 (V : Valuation τ sig (Elt F)) : after rest V (main_arg0 : DevRef τ sig) = V (main_arg0 : DevRef τ sig) := by
  simp only [after_cons, after_nil]
  rfl
set_option maxRecDepth 8192 in
theorem rest_main_arg1 (V : Valuation τ sig (Elt F)) : after rest V (main_arg1 : DevRef τ sig) = V (main_arg1 : DevRef τ sig) := by
  simp only [after_cons, after_nil]
  rfl
set_option maxRecDepth 8192 in
theorem rest_main_arg2 (V : Valuation τ sig (Elt F)) : after rest V (main_arg2 : DevRef τ sig) = V (main_arg2 : DevRef τ sig) := by
  simp only [after_cons, after_nil]
  rfl
set_option maxRecDepth 8192 in
theorem rest_main_arg3 (V : Valuation τ sig (Elt F)) : after rest V (main_arg3 : DevRef τ sig) = V (main_arg3 : DevRef τ sig) := by
  simp only [after_cons, after_nil]
  rfl
set_option maxRecDepth 8192 in
theorem rest_main_arg4 (V : Valuation τ sig (Elt F)) : after rest V (main_arg4 : DevRef τ sig) = V (main_arg4 : DevRef τ sig) := by
  simp only [after_cons, after_nil]
  rfl

/-! ## The whole line -/

/-- The line's fold at the result buffer is the reference's term of the arguments' contents. -/
theorem out_eq (V : Valuation τ sig (Elt F)) :
    after ops V (main_v4 : DevRef τ sig)
      = out (V (main_arg0 : DevRef τ sig)) (V (main_arg1 : DevRef τ sig)) (V (main_arg2 : DevRef τ sig))
          (V (main_arg3 : DevRef τ sig)) (V (main_arg4 : DevRef τ sig)) := by
  rw [after_ops, rest_out, second_out, second_main_v0, first_out, second_main_arg1, second_main_arg4,
    first_main_arg0, first_main_arg1, first_main_arg3, first_main_arg4]
  rfl

theorem arg0_eq (V : Valuation τ sig (Elt F)) : after ops V (main_arg0 : DevRef τ sig) = V (main_arg0 : DevRef τ sig) := by
  rw [after_ops, rest_main_arg0, second_main_arg0, first_main_arg0]
theorem arg1_eq (V : Valuation τ sig (Elt F)) : after ops V (main_arg1 : DevRef τ sig) = V (main_arg1 : DevRef τ sig) := by
  rw [after_ops, rest_main_arg1, second_main_arg1, first_main_arg1]
theorem arg2_eq (V : Valuation τ sig (Elt F)) : after ops V (main_arg2 : DevRef τ sig) = V (main_arg2 : DevRef τ sig) := by
  rw [after_ops, rest_main_arg2, second_main_arg2, first_main_arg2]
theorem arg3_eq (V : Valuation τ sig (Elt F)) : after ops V (main_arg3 : DevRef τ sig) = V (main_arg3 : DevRef τ sig) := by
  rw [after_ops, rest_main_arg3, second_main_arg3, first_main_arg3]
theorem arg4_eq (V : Valuation τ sig (Elt F)) : after ops V (main_arg4 : DevRef τ sig) = V (main_arg4 : DevRef τ sig) := by
  rw [after_ops, rest_main_arg4, second_main_arg4, first_main_arg4]

/-- Every weakly fair execution of the reference terminates with its result at that term of the launch contents of
    the arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v4).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.Line

end
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.RefRead.lean ====
/-
  The reference's term, read entry by entry, is the edge embedding when every index word lies in [0, 9999].

  For such a word the wrap leaves it as it is, the in-range test passes on every row, so every row of a take is the
  gathered one, and the gather's clamp changes nothing: row e of a take is the table row the word names. Entry (e, j)
  of the product sums, over the 768 places of row e of the three pieces laid side by side, the piece's entry times the
  weight; by thirds that is the three pieces' sums. The activation multiplies an entry x by 1 / (1 + exp (−x)), which
  is x times the logistic function of x.
-/
import proofs.«425093_j87900800680239_1_alg».proof.Proof.RefTerm
import proofs.«425093_j87900800680239_1_alg».proof.Proof.Spec
import proofs.«425093_j87900800680239_1_alg».proof.Proof.LibTakeRows
import proofs.«425093_j87900800680239_1_alg».proof.Proof.LibPlainDot
import Idealize.ShloMosaic.Lib.Pipeline.Value
import Idealize.ShloMosaic.Lib.ReduceAll
import Idealize.ShloMosaic.PureOps.Ideal.Laws

noncomputable section

namespace Cert.ReferenceIdeal.Line

open Cert.ReferenceIdeal Cert.ReferenceIdeal.Gen Idealize.ShloMosaic Idealize.ShloMosaic.ValueIdx Cert.EdgeEmbed

/-- The three signed comparisons of the take, on a word in range. -/
theorem cmp_in_range (w : BitVec 32) (h0 : 0 ≤ w.toInt) (h1 : w.toInt < 10000) :
    IntOp.cmpi .slt w 0#32 = 0#1 ∧ IntOp.cmpi .sge w 0#32 = 1#1 ∧ IntOp.cmpi .sle w 9999#32 = 1#1 := by
  have hz : (0#32 : BitVec 32).toInt = 0 := by decide
  have h9 : (9999#32 : BitVec 32).toInt = 9999 := by decide
  refine ⟨?_, ?_, ?_⟩
  · show BitVec.ofBool (decide (w.toInt < (0#32 : BitVec 32).toInt)) = 0#1
    rw [hz, decide_eq_false (by omega)]; rfl
  · show BitVec.ofBool (decide ((0#32 : BitVec 32).toInt ≤ w.toInt)) = 1#1
    rw [hz, decide_eq_true (by omega)]; rfl
  · show BitVec.ofBool (decide (w.toInt ≤ (9999#32 : BitVec 32).toInt)) = 1#1
    rw [h9, decide_eq_true (by omega)]; rfl

/-- An and-reduction from 1 over entries that are all 1 is 1. -/
theorem reduce_andi_of_all_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  generalize (List.filter _ _) = l
  induction l with
  | nil => rfl
  | cons a l ih =>
    rw [List.foldl_cons, hx a, show IntOp.andi 1#1 1#1 = 1#1 from by decide]
    exact ih

/-- A word in range is not wrapped. -/
theorem wrapped_apply (idx : IVec S320000 32) (i : S320000.Idx) (h0 : 0 ≤ (idx i).toInt) (h1 : (idx i).toInt < 10000) :
    wrapped idx i = idx i := by
  show Scalar.select (IntOp.cmpi .slt (idx i) 0#32) _ (idx i) = idx i
  rw [(cmp_in_range _ h0 h1).1]
  exact select_zero _ _

/-- The column holds the wrapped word of its row. -/
theorem column_apply (idx : IVec S320000 32) (j : S320000x1.Idx) : column idx j = wrapped idx (ix1 (j 0)) := by
  unfold column broadcastInDim
  congr 1
  funext a
  match a with
  | ⟨0, _⟩ => rfl

/-- In range, the in-range test passes on every row. -/
theorem inside_apply (idx : IVec S320000 32) (hr : InRange idx) (i : S320000.Idx) : inside idx i = 1#1 := by
  unfold inside
  refine reduce_andi_of_all_one _ _ _ _ rfl (fun j => ?_) i
  show IntOp.andi (IntOp.cmpi .sge (column idx j) 0#32) (IntOp.cmpi .sle (column idx j) 9999#32) = 1#1
  rw [column_apply, wrapped_apply idx _ (hr _).1 (hr _).2]
  obtain ⟨_, h2, h3⟩ := cmp_in_range _ (hr (ix1 (j 0))).1 (hr (ix1 (j 0))).2
  rw [h2, h3]
  decide

/-- In range, row e of the take is the table row the word names. -/
theorem take_apply (x : FVec Ideal S10000x256 .f32) (idx : IVec S320000 32) (hr : InRange idx) (e : Fin 320000) (k : Fin 256) :
    take x idx (ix2 e k) = x (ix2 (row (idx (ix1 e))) k) := by
  unfold take
  rw [select_apply]
  have hm : broadcastInDim S320000x256 ![0] bcast_S320000_S320000x256_0 (inside idx) (ix2 e k) = 1#1 := by
    unfold broadcastInDim
    exact inside_apply idx hr _
  rw [hm, select_one]
  refine (Cert.LibTakeRows.gather_rows_apply (N := 10000) (W := 256) (E := 320000) (by norm_num)
    gather_S10000x256_S320000x1_S320000x256_1_0_n_n_0_1_1256_wf x (column idx) e k).trans ?_
  refine congrArg (fun r : Fin 10000 => x (ix2 r k)) (Fin.ext ?_)
  show min (column idx (ix2 e (0 : Fin 1))).toInt.toNat (10000 - 1) = min (idx (ix1 e)).toInt.toNat 9999
  rw [column_apply, wrapped_apply idx _ (hr _).1 (hr _).2]

section Pieces
variable (a b c : FVec Ideal S320000x256 .f32) (e : Fin 320000) (k : Fin 256)

/-- Place k of the first third of a row of the three pieces side by side is the first piece's. -/
theorem cat_first :
    concatenate S320000x768 1 [⟨S320000x256, a⟩, ⟨S320000x256, b⟩, ⟨S320000x256, c⟩]
      concatenates_S320000x256_S320000x256_S320000x256_S320000x768_d1 (ix2 e (w0 k)) = a (ix2 e k) :=
  concatenate_apply_piece 1 _ _ (ix2 e (w0 k)) 0 (by simp) S320000x256 a rfl rfl 0 rfl (ix2 e k)
    (fun d hd => by match d with | ⟨0, _⟩ => rfl | ⟨1, _⟩ => exact absurd rfl hd) (Nat.zero_add _)

/-- The second third is the second piece's. -/
theorem cat_second :
    concatenate S320000x768 1 [⟨S320000x256, a⟩, ⟨S320000x256, b⟩, ⟨S320000x256, c⟩]
      concatenates_S320000x256_S320000x256_S320000x256_S320000x768_d1 (ix2 e (w1 k)) = b (ix2 e k) :=
  concatenate_apply_piece 1 _ _ (ix2 e (w1 k)) 1 (by simp) S320000x256 b rfl rfl 256 rfl (ix2 e k)
    (fun d hd => by match d with | ⟨0, _⟩ => rfl | ⟨1, _⟩ => exact absurd rfl hd) rfl

/-- The last third is the third piece's. -/
theorem cat_third :
    concatenate S320000x768 1 [⟨S320000x256, a⟩, ⟨S320000x256, b⟩, ⟨S320000x256, c⟩]
      concatenates_S320000x256_S320000x256_S320000x256_S320000x768_d1 (ix2 e (w2 k)) = c (ix2 e k) :=
  concatenate_apply_piece 1 _ _ (ix2 e (w2 k)) 2 (by simp) S320000x256 c rfl rfl 512 rfl (ix2 e k)
    (fun d hd => by match d with | ⟨0, _⟩ => rfl | ⟨1, _⟩ => exact absurd rfl hd) rfl

end Pieces

/-- In range, entry (e, j) of the product is the three pieces' sums. -/
theorem dense_apply (x : FVec Ideal S10000x256 .f32) (mr : FVec Ideal S320000x256 .f32) (ia ic : IVec S320000 32)
    (W : FVec Ideal S768x256 .f32) (ha : InRange ia) (hc : InRange ic) (e : Fin 320000) (j : Fin 256) :
    dense x mr ia ic W (ix2 e j) = lin x mr ia ic W e j := by
  unfold dense
  show FloatOps.dotGeneral dot_S320000x768_S768x256_S320000x256_1_0_0_1_n_n none .single _ W (ix2 e j) = _
  rw [Ideal.dotGeneral_apply,
    Cert.LibPlainDot.sum_apply dot_S320000x768_S768x256_S320000x256_1_0_0_1_n_n rfl rfl rfl rfl rfl rfl rfl rfl,
    sum_thirds]
  unfold lin
  refine congrArg₂ (· + ·) (congrArg₂ (· + ·) ?_ ?_) ?_
  · exact Finset.sum_congr rfl fun k _ => by rw [cat_first, take_apply x ia ha]
  · exact Finset.sum_congr rfl fun k _ => by rw [cat_second, take_apply x ic hc]
  · exact Finset.sum_congr rfl fun k _ => by rw [cat_third]

/-- The word 0x3F800000 is the number one. -/
theorem ofBits_one : Ideal.ofBits .f32 0x3F800000#32 = 1 := by
  simp [Ideal.ofBits, Ideal.ieee, -EReal.coe_mul]; norm_num

/-- The activation multiplies an entry by its logistic. -/
theorem act_apply (y : FVec Ideal S320000x256 .f32) (i : S320000x256.Idx) : act y i = y i * Ideal.logistic (y i) := by
  show y i * Ideal.div (Ideal.ofBits .f32 0x3F800000#32) (Ideal.ofBits .f32 0x3F800000#32 + Ideal.exp (-(y i))) = _
  rw [ofBits_one]
  rfl

/-- THE REFERENCE IS THE EDGE EMBEDDING, for index words in range. -/
theorem out_eq_G (x : FVec Ideal S10000x256 .f32) (mr : FVec Ideal S320000x256 .f32) (ia ic : IVec S320000 32)
    (W : FVec Ideal S768x256 .f32) (ha : InRange ia) (hc : InRange ic) :
    out x mr ia ic W = G x mr ia ic W := by
  funext i
  obtain ⟨e, j, rfl⟩ : ∃ (e : Fin 320000) (j : Fin 256), i = ix2 e j := ⟨i 0, i 1, eq_ix2 i⟩
  unfold out
  rw [act_apply, dense_apply x mr ia ic W ha hc]
  rfl

end Cert.ReferenceIdeal.Line

end
-- ==== Proof.PreRange.lean ====
/-
  The precondition says that every index word lies in [0, 9999].

  The precondition is a conjunction; its last two conjuncts say, of each index vector, that every word is at least 0 and
  below 10000 as signed integers (a conjunction over all words, computed as an and-reduction from 1). A conjunction that
  is 1 has every conjunct 1, and an and-reduction that is 1 met only 1s.
-/
import proofs.«425093_j87900800680239_1_alg».proof.Pre_finite_inputs
import proofs.«425093_j87900800680239_1_alg».proof.Proof.Spec
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx Cert.EdgeEmbed

instance : Subsingleton S_.Idx := ⟨fun _ _ => funext fun d => d.elim0⟩

/-- The two signed comparisons that came out 1 say the word is in [0, 9999]. -/
theorem range_of_cmp (w : BitVec 32) (h0 : IntOp.cmpi .sge w 0#32 = 1#1) (h1 : IntOp.cmpi .slt w 10000#32 = 1#1) :
    0 ≤ w.toInt ∧ w.toInt < 10000 := by
  have hz : (0#32 : BitVec 32).toInt = 0 := by decide
  have ht : (10000#32 : BitVec 32).toInt = 10000 := by decide
  have a : decide ((0#32 : BitVec 32).toInt ≤ w.toInt) = true := (StableHlo.Predicate.ofBool_eq_one_iff _).1 h0
  have b : decide (w.toInt < (10000#32 : BitVec 32).toInt) = true := (StableHlo.Predicate.ofBool_eq_one_iff _).1 h1
  have a' := of_decide_eq_true a
  have b' := of_decide_eq_true b
  rw [hz] at a'
  rw [ht] at b'
  exact ⟨a', b'⟩

variable [Facts]

/-- Under the precondition both index vectors are in range. -/
theorem inRange_of_pre (a0 : FVec Ideal S10000x256 .f32) (a1 : FVec Ideal S320000x256 .f32) (a2 a3 : IVec S320000 32)
    (a4 : FVec Ideal S768x256 .f32) (h : fn (F := Ideal) a0 a1 a2 a3 a4 = fun _ => 1#1) : InRange a2 ∧ InRange a3 := by
  have h1 := congrFun h ix0
  dsimp only [fn, fn_part1] at h1
  obtain ⟨h20, h26⟩ := IntOp.andi_eq_one.1 h1
  obtain ⟨_, h19⟩ := IntOp.andi_eq_one.1 h20
  constructor
  · intro i
    have hi := Host.reduce_andi_all _ _ _ _ ix0 h19 i
    obtain ⟨x, y⟩ := IntOp.andi_eq_one.1 hi
    exact range_of_cmp _ x y
  · intro i
    have hi := Host.reduce_andi_all _ _ _ _ ix0 h26 i
    obtain ⟨x, y⟩ := IntOp.andi_eq_one.1 hi
    exact range_of_cmp _ x y

end Cert.Pre_finite_inputs.Decode

end
-- ==== Proof.lean ====
/-
  An edge embedding on the TensorCore against its plain reference: for 320000 edges, the two atom-table rows an edge's
  end points name and the edge's own feature row, side by side, times a weight matrix, through x ↦ x · logistic x.

  The kernel picks each table row by multiplying a row of zeros with a single one into the whole table, and multiplies
  the three pieces into the three blocks of rows of the weight matrix separately; the reference gathers the rows,
  concatenates and multiplies once. Over the extended reals both are the same function of the arguments as soon as every
  index word lies in [0, 9999], which the precondition states: outside that range the reference wraps a negative word
  and fills with a non-number above the table, while the kernel's one-hot row is all zeros. Picking by a one-hot row is
  exact (zero times anything is zero), a sum over 768 places is the sum of its three thirds, and the kernel's logistic
  is the reference's 1 / (1 + exp (−x)). Finiteness of the float inputs is not used.

  The three frames: the kernel's two are the generated frame proofs; the reference has no kernel, and its frame is its
  run as a straight line of host operations. The idealization rewrote nothing, so it preserves the kernel trivially.
-/
import proofs.«425093_j87900800680239_1_alg».proof.Defs
import proofs.«425093_j87900800680239_1_alg».proof.Proof.Gen.Kernel
import proofs.«425093_j87900800680239_1_alg».proof.Proof.Gen.Kernel.Skeleton
import proofs.«425093_j87900800680239_1_alg».proof.Proof.Gen.Kernel.Launch
import proofs.«425093_j87900800680239_1_alg».proof.Proof.Gen.Kernel.Points
import proofs.«425093_j87900800680239_1_alg».proof.Proof.Gen.Kernel.Frame
import proofs.«425093_j87900800680239_1_alg».proof.Proof.Gen.KernelIdeal
import proofs.«425093_j87900800680239_1_alg».proof.Proof.Gen.KernelIdeal.Skeleton
import proofs.«425093_j87900800680239_1_alg».proof.Proof.Gen.KernelIdeal.Launch
import proofs.«425093_j87900800680239_1_alg».proof.Proof.Gen.KernelIdeal.Points
import proofs.«425093_j87900800680239_1_alg».proof.Proof.Gen.KernelIdeal.Frame
import proofs.«425093_j87900800680239_1_alg».proof.Proof.Gen.KernelIdeal.Value
import proofs.«425093_j87900800680239_1_alg».proof.Proof.Gen.ReferenceIdeal
import proofs.«425093_j87900800680239_1_alg».proof.Proof.Gen.Pre_finite_inputs
import proofs.«425093_j87900800680239_1_alg».proof.Proof.KerValue
import proofs.«425093_j87900800680239_1_alg».proof.Proof.RefFold
import proofs.«425093_j87900800680239_1_alg».proof.Proof.RefRead
import proofs.«425093_j87900800680239_1_alg».proof.Proof.PreRange
import Idealize.ShloMosaic.Adequacy
import Idealize.ShloMosaic.Init

noncomputable section

namespace Cert.Proof

open Idealize.ShloMosaic Idealize.SL.Sem Cert.EdgeEmbed

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Line.run (F := Ideal) m ρ)

theorem preserves : Cert.preserves_Kernel_KernelIdeal := trivial

/-- Both programs end with the embedding of the (agreeing) arguments in their result. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg2))
      ∧ InRange (m ((c.tc : Thread Cert.KernelIdeal.nD Cert.KernelIdeal.τ).loc Cert.KernelIdeal.main_arg3)) :=
    fun c => Cert.Pre_finite_inputs.Decode.inRange_of_pre _ _ _ _ _ (hpre c)
  refine ⟨fun c => Cert.KernelIdeal.EdgeValue.Gm m c, Cert.KernelIdeal.EdgeValue.run m ρ hr, ?_⟩
  refine (θ_run Cert.ReferenceIdeal.defs _ _).mono (fun _ h c => ⟨(h c).1.trans ?_, (h c).2⟩)
    (Cert.ReferenceIdeal.Line.run (F := Ideal) m' ρ')
  obtain ⟨a0, a1, a2, a3, a4⟩ := hagree c
  rw [a0, a1, a2, a3, a4]
  exact Cert.ReferenceIdeal.Line.out_eq_G _ _ _ _ _ (hr c).1 (hr c).2

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
